-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8388608 : Shape := ⟨1, ![8388608]⟩
abbrev S16384x1 : Shape := ⟨2, ![16384, 1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x1 : S_.BroadcastsInDim S16384x1 (![] : Fin 0 → Fin S16384x1.rank)
  reducesTo_S16384x1_S_d0_1 : S16384x1.ReducesTo [0, 1] S_

variable [Facts]

def fn {F : FTy → Type} [FloatOps F] (main_arg0 : FVec F S8192x4096 .f32) (main_arg1 : IVec S8388608 32) (main_arg2 : FVec F S16384x1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x1 .f32 := Host.absf main_arg2
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  main_v8
-- ==== Kernel.lean ====
abbrev S8192x4096 : Shape := ⟨2, ![8192, 4096]⟩
abbrev S8388608 : Shape := ⟨1, ![8388608]⟩
abbrev S16384x1 : Shape := ⟨2, ![16384, 1]⟩
abbrev S16384x512 : Shape := ⟨2, ![16384, 512]⟩
abbrev S8192x4x128x8 : Shape := ⟨4, ![8192, 4, 128, 8]⟩
abbrev S8192x4x8x128 : Shape := ⟨4, ![8192, 4, 8, 128]⟩
abbrev S8192x16384 : Shape := ⟨2, ![8192, 16384]⟩
abbrev S1024x1024 : Shape := ⟨2, ![1024, 1024]⟩
abbrev S512x128 : Shape := ⟨2, ![512, 128]⟩
abbrev S512x1 : Shape := ⟨2, ![512, 1]⟩
abbrev S1024x512 : Shape := ⟨2, ![1024, 512]⟩
abbrev S512x1024 : Shape := ⟨2, ![512, 1024]⟩

abbrev nBuf : Space → Nat
  | .hbm => 8
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S8388608, .i32⟩
  | .hbm, ⟨2, _⟩ => ⟨S16384x1, .f32⟩
  | .hbm, ⟨3, _⟩ => ⟨S16384x512, .i32⟩
  | .hbm, ⟨4, _⟩ => ⟨S8192x4x128x8, .f32⟩
  | .hbm, ⟨5, _⟩ => ⟨S8192x4x8x128, .f32⟩
  | .hbm, ⟨6, _⟩ => ⟨S8192x4096, .f32⟩
  | .hbm, ⟨7, _⟩ => ⟨S8192x16384, .f32⟩
  | .local _ .vmem, ⟨0, _⟩ => ⟨S1024x1024, .f32⟩
  | .local _ .vmem, ⟨1, _⟩ => ⟨S1024x1024, .f32⟩
  | .local _ .vmem, ⟨2, _⟩ => ⟨S512x128, .i32⟩
  | .local _ .vmem, ⟨3, _⟩ => ⟨S512x128, .i32⟩
  | .local _ .vmem, ⟨4, _⟩ => ⟨S512x1, .f32⟩
  | .local _ .vmem, ⟨5, _⟩ => ⟨S512x1, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 32, 4], ![false, false, false]⟩

def k0_cond2 (i : grid0.Coords) : BitVec 1 :=
  let arg2 : BitVec 32 := BitVec.ofNat 32 (i 2).val
  let c3_i32_35 : BitVec 32 := 3#32
  let v84 : BitVec 1 := Scalar.cmpi .eq arg2 c3_i32_35
  let v85 : BitVec 32 := Scalar.extui v84
  let c0_i32_36 : BitVec 32 := 0#32
  let v86 : BitVec 1 := Scalar.cmpi .ne v85 c0_i32_36
  v86

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S8388608_S16384x512 : S8388608.ShapeCasts S16384x512
  shapeCasts_S8192x4096_S8192x4x128x8 : S8192x4096.ShapeCasts S8192x4x128x8
  transposes_S8192x4x128x8_S8192x4x8x128_0_1_3_2 : S8192x4x128x8.Transposes [0, 1, 3, 2] S8192x4x8x128
  shapeCasts_S8192x4x8x128_S8192x4096 : S8192x4x8x128.ShapeCasts S8192x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  concatenates_S512x128_S512x128_S512x128_S512x128_S512x128_S512x128_S512x128_S512x128_S512x1024_d1 : Shape.Concatenates [S512x128, S512x128, S512x128, S512x128, S512x128, S512x128, S512x128, S512x128] S512x1024 1
  broadcasts_S512x1_S512x1024 : S512x1.Broadcasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x512.size a
  hwx0_1 : ∀ i : grid0.Coords, EltTy.bits .i32 = 32 ∨ (Rect.block (s := S16384x512) S512x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x16384.size a
  hwx0_3 : ∀ i : grid0.Coords, EltTy.bits .f32 = 32 ∨ (Rect.block (s := S8192x16384) S1024x512.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_v3) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8388608 : Shape := ⟨1, ![8388608]⟩
abbrev S16384x1 : Shape := ⟨2, ![16384, 1]⟩
abbrev S8 : Shape := ⟨1, ![8]⟩
abbrev S_ : Shape := ⟨0, ![]⟩
abbrev S8388608x1 : Shape := ⟨2, ![8388608, 1]⟩
abbrev S1x8 : Shape := ⟨2, ![1, 8]⟩
abbrev S8388608x8 : Shape := ⟨2, ![8388608, 8]⟩
abbrev S67108864 : Shape := ⟨1, ![67108864]⟩
abbrev S16384x4096 : Shape := ⟨2, ![16384, 4096]⟩
abbrev S4096x16384 : Shape := ⟨2, ![4096, 16384]⟩
abbrev S8192x16384 : Shape := ⟨2, ![8192, 16384]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8388608, .i32⟩
  | .hbm, ⟨2, _⟩ => ⟨S16384x1, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8388608x1, .i32⟩
  | .hbm, ⟨11, _⟩ => ⟨S1x8, .i32⟩
  | .hbm, ⟨12, _⟩ => ⟨S8388608x8, .i32⟩
  | .hbm, ⟨13, _⟩ => ⟨S8388608x8, .i32⟩
  | .hbm, ⟨14, _⟩ => ⟨S8388608x8, .i32⟩
  | .hbm, ⟨15, _⟩ => ⟨S_, .i32⟩
  | .hbm, ⟨16, _⟩ => ⟨S8388608x8, .i32⟩
  | .hbm, ⟨17, _⟩ => ⟨S8388608x8, .i32⟩
  | .hbm, ⟨18, _⟩ => ⟨S_, .i32⟩
  | .hbm, ⟨19, _⟩ => ⟨S8388608x8, .i32⟩
  | .hbm, ⟨20, _⟩ => ⟨S8388608x8, .i32⟩
  | .hbm, ⟨21, _⟩ => ⟨S_, .i32⟩
  | .hbm, ⟨22, _⟩ => ⟨S8388608x8, .i32⟩
  | .hbm, ⟨23, _⟩ => ⟨S8388608x8, .i32⟩
  | .hbm, ⟨24, _⟩ => ⟨S67108864, .i32⟩
  | .hbm, ⟨25, _⟩ => ⟨S16384x4096, .i32⟩
  | .hbm, ⟨26, _⟩ => ⟨S16384x4096, .f32⟩
  | .hbm, ⟨27, _⟩ => ⟨S16384x4096, .f32⟩
  | .hbm, ⟨28, _⟩ => ⟨S16384x4096, .f32⟩
  | .hbm, ⟨29, _⟩ => ⟨S4096x16384, .f32⟩
  | .hbm, ⟨30, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8388608_S8388608x1_0 : S8388608.BroadcastsInDim S8388608x1 (![0] : Fin 1 → Fin S8388608x1.rank)
  bcast_S8_S1x8_1 : S8.BroadcastsInDim S1x8 (![1] : Fin 1 → Fin S1x8.rank)
  bcast_S8388608x1_S8388608x8_0_1 : S8388608x1.BroadcastsInDim S8388608x8 (![0, 1] : Fin 2 → Fin S8388608x8.rank)
  bcast_S1x8_S8388608x8_0_1 : S1x8.BroadcastsInDim S8388608x8 (![0, 1] : Fin 2 → Fin S8388608x8.rank)
  bcast_S_S8388608x8 : S_.BroadcastsInDim S8388608x8 (![] : Fin 0 → Fin S8388608x8.rank)
  shapeCasts_S8388608x8_S67108864 : S8388608x8.ShapeCasts S67108864
  shapeCasts_S67108864_S16384x4096 : S67108864.ShapeCasts S16384x4096
  bcast_S16384x1_S16384x4096_0_1 : S16384x1.BroadcastsInDim S16384x4096 (![0, 1] : Fin 2 → Fin S16384x4096.rank)
  transposes_S16384x4096_S4096x16384_1_0 : S16384x4096.Transposes [1, 0] S4096x16384
  dot_S8192x4096_S4096x16384_S8192x16384_1_0_0_1_n_n_wf : DotDims.WF S8192x4096 S4096x16384 S8192x16384 [1] [0] [0] [1] [] []

variable [Facts₀]

def dot_S8192x4096_S4096x16384_S8192x16384_1_0_0_1_n_n : DotDims S8192x4096 S4096x16384 S8192x16384 where
  lhsContracting := [1]
  rhsContracting := [0]
  lhsNonContracting := [0]
  rhsNonContracting := [1]
  lhsBatch := []
  rhsBatch := []
  wf := dot_S8192x4096_S4096x16384_S8192x16384_1_0_0_1_n_n_wf

class Facts : Prop extends Facts₀ where

variable [Facts]
-- ==== Proof.Spec.lean ====
/-
  The bit-linear layer as one function of its three arguments, over the extended reals.

  Each packed word of `bp` carries eight weights, most significant bit first: bit `7 - s` of word `n` is the
  weight at flat position `8 n + s`, read as `+1` when the bit is set and `-1` when it is clear (`2·bit - 1`).
  The flat weights, laid out row-major as a 16384 × 4096 matrix and scaled row by row, are multiplied from the right
  (transposed) onto `x`:

      out[b, o] = ∑ᵢ x[b, i] · (sign(bp[512·o + i / 8], 7 - i % 8) · scale[o]).

  The second half of the file re-indexes that sum over `i < 4096` as four tiles of 1024 columns, each tile
  visited plane by plane: position `kk` of a tile is column `8·(kk % 128) + kk / 128` of it. Addition of
  extended reals is commutative and associative, so a sum may be taken in any order of its index set.
-/
import Idealize.ShloMosaic.PureOps.Ideal.Laws
import Idealize.ShloMosaic.Lib.ValueIdx

noncomputable section

namespace Cert.BitLinear

open Idealize.ShloMosaic Idealize.ShloMosaic.ValueIdx

/-- The integer `2·bit - 1` for bit `s` of the word `v`: `+1` when the bit is set, `-1` when it is clear. -/
def signWord (v s : BitVec 32) : BitVec 32 :=
  IntOp.subi (IntOp.muli (IntOp.andi (IntOp.shrsi .vector v s) 1#32) 2#32) 1#32

/-- Entry `(o, i)` of the dequantised weight matrix: the sign carried by bit `7 - i % 8` of packed word
    `512·o + i / 8`, as a real, times row `o`'s scale. -/
def weight (bp : (⟨1, ![8388608]⟩ : Shape).Idx → BitVec 32) (scale : (⟨2, ![16384, 1]⟩ : Shape).Idx → EReal)
    (o : Fin 16384) (i : Fin 4096) : EReal :=
  (FloatOps.sitofp (F := Ideal) .f32
      (signWord (bp (ix1 (⟨o.val * 512 + i.val / 8, by have := o.isLt; have := i.isLt; omega⟩ : Fin 8388608)))
        (BitVec.ofNat 32 (7 - i.val % 8))) : EReal)
    * scale (ix2 o (0 : Fin 1))

/-- The layer's result: `x` times the transposed weight matrix. -/
def spec (x : (⟨2, ![8192, 4096]⟩ : Shape).Idx → EReal) (bp : (⟨1, ![8388608]⟩ : Shape).Idx → BitVec 32)
    (scale : (⟨2, ![16384, 1]⟩ : Shape).Idx → EReal) : (⟨2, ![8192, 16384]⟩ : Shape).Idx → EReal :=
  fun j => ∑ i : Fin 4096, x (ix2 (j 0) i) * weight bp scale (j 1) i

/-! ## The column sum, tile by tile and plane by plane -/

/-- Column of position `kk` in tile `s`: the tile starts at `1024·s`; inside it position `128·p + g` (plane
    `p`, group `g`) is column `8·g + p`. -/
def col (s : ℕ) (kk : Fin 1024) : Fin 4096 :=
  ⟨(s % 4) * 1024 + ((kk.val % 128) * 8 + kk.val / 128), by have := kk.isLt; omega⟩

theorem col_div8 (s : ℕ) (hs : s < 4) (kk : Fin 1024) : (col s kk).val / 8 = s * 128 + kk.val % 128 := by
  have := kk.isLt
  show ((s % 4) * 1024 + ((kk.val % 128) * 8 + kk.val / 128)) / 8 = _
  omega

theorem col_mod8 (s : ℕ) (kk : Fin 1024) : (col s kk).val % 8 = kk.val / 128 := by
  have := kk.isLt
  show ((s % 4) * 1024 + ((kk.val % 128) * 8 + kk.val / 128)) % 8 = _
  omega

theorem split1024 (a b : ℕ) (hb : b < 1024) : (a * 1024 + b) % 1024 = b ∧ (a * 1024 + b) / 1024 = a := by omega
theorem split8 (g p : ℕ) (hp : p < 8) : (g * 8 + p) % 8 = p ∧ (g * 8 + p) / 8 = g := by omega
theorem split128 (u w : ℕ) (hw : w < 128) : (u * 128 + w) % 128 = w ∧ (u * 128 + w) / 128 = u := by omega

/-- (tile, position) ↔ column is a bijection. -/
def tileEquiv : Fin 4 × Fin 1024 ≃ Fin 4096 where
  toFun p := col p.1.val p.2
  invFun i := (⟨i.val / 1024, by have := i.isLt; omega⟩,
    ⟨(i.val % 1024 % 8) * 128 + i.val % 1024 / 8, by have := i.isLt; omega⟩)
  left_inv := by
    rintro ⟨s, kk⟩
    have hs := s.isLt
    have hk := kk.isLt
    refine Prod.ext (Fin.ext ?_) (Fin.ext ?_)
    · show ((s.val % 4) * 1024 + ((kk.val % 128) * 8 + kk.val / 128)) / 1024 = s.val
      omega
    · show (((s.val % 4) * 1024 + ((kk.val % 128) * 8 + kk.val / 128)) % 1024 % 8) * 128
          + ((s.val % 4) * 1024 + ((kk.val % 128) * 8 + kk.val / 128)) % 1024 / 8 = kk.val
      have hp : kk.val / 128 < 8 := by omega
      have hb : (kk.val % 128) * 8 + kk.val / 128 < 1024 := by omega
      rw [(split1024 _ _ hb).1, (split8 _ _ hp).1, (split8 _ _ hp).2]
      omega
  right_inv := by
    intro i
    have hi := i.isLt
    refine Fin.ext ?_
    show ((i.val / 1024) % 4) * 1024
        + ((((i.val % 1024 % 8) * 128 + i.val % 1024 / 8) % 128) * 8 + ((i.val % 1024 % 8) * 128 + i.val % 1024 / 8) / 128) = i.val
    have hw : i.val % 1024 / 8 < 128 := by omega
    rw [(split128 _ _ hw).1, (split128 _ _ hw).2]
    omega

/-- A sum over the 4096 columns is the sum over the four tiles of the sums over each tile's 1024 positions. -/
theorem sum_tiles {M : Type*} [AddCommMonoid M] (f : Fin 4096 → M) :
    ∑ i, f i = ∑ s ∈ Finset.range 4, ∑ kk : Fin 1024, f (col s kk) :=
  calc ∑ i, f i = ∑ p : Fin 4 × Fin 1024, f (tileEquiv p) := (Equiv.sum_comp tileEquiv f).symm
    _ = ∑ s : Fin 4, ∑ kk : Fin 1024, f (col s.val kk) := Fintype.sum_prod_type _
    _ = ∑ s ∈ Finset.range 4, ∑ kk : Fin 1024, f (col s kk) :=
        (Finset.sum_range (fun s => ∑ kk : Fin 1024, f (col s kk))).symm

end Cert.BitLinear

end
-- ==== Proof.RefIsSpec.lean ====
/-
  The reference's result is the layer's function `spec`.

  The reference unpacks every word of `bp` into eight signs by shifting it right by `7, 6, …, 0` (the vector
  `7 + (-1)·iota`), masking with 1 and mapping the bit to `2·bit - 1`; flattens the [8388608, 8] array of signs
  and reshapes it row-major to [16384, 4096]; converts to reals, scales each row and multiplies `x` by the
  transpose. Read at an index, entry `(o, i)` of the sign matrix is flat position `4096·o + i`, that is word
  `(4096·o + i) / 8 = 512·o + i / 8` and shift `7 - (4096·o + i) % 8 = 7 - i % 8`: the entry `weight … o i` of the
  specification, and the product is its sum over `i`.
-/
import proofs.«405100_j22162031247999_2_alg».proof.Proof.Gen.ReferenceIdeal.Read
import proofs.«405100_j22162031247999_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.BitLinear

/-- The shift amounts the reference computes, `7 + (-1)·s` in 32-bit arithmetic, are `7 - s` for `s < 8`. -/
theorem shift_amount (s : ℕ) (hs : s < 8) :
    IntOp.addi 7#32 (IntOp.muli 4294967295#32 (BitVec.ofNat 32 s)) = BitVec.ofNat 32 (7 - s) := by
  interval_cases s <;> rfl

/-- For a shift amount below the word width the host's arithmetic right shift is the vector unit's. -/
theorem shrsi_host_eq (v : BitVec 32) (n : ℕ) (hn : n < 32) :
    IntOp.shrsi .host v (BitVec.ofNat 32 n) = IntOp.shrsi .vector v (BitVec.ofNat 32 n) := by
  have h : (BitVec.ofNat 32 n).toNat < 32 := by
    rw [BitVec.toNat_ofNat]; exact Nat.lt_of_le_of_lt (Nat.mod_le _ _) hn
  unfold IntOp.shrsi
  rw [if_pos h, if_pos h]

/-- Entry `(k, o)` of the transposed, scaled sign matrix the reference multiplies by is `weight … o k`. -/
theorem weight_eq (x1 : (⟨S8388608, .i32⟩ : BufTy).Contents (Elt Ideal)) (x2 : (⟨S16384x1, .f32⟩ : BufTy).Contents (Elt Ideal))
    (o : Fin 16384) (k : Fin 4096) :
    val_main_v21 (F := Ideal) x1 x2 (ix2 k o) = weight x1 x2 o k := by
  have ho := o.isLt
  have hk := k.isLt
  rw [val_main_v21_apply, val_main_v20_apply, val_main_v18_apply, val_main_v19_apply, val_main_v17_apply, val_main_v16_apply,
    val_main_v15_apply, val_main_v13_apply, val_main_v11_apply, val_main_v9_apply, val_main_v7_apply, val_main_v5_apply,
    val_main_v8_apply, val_main_v6_apply, val_main_v4_apply, val_main_v3_apply, val_main_c_0_apply, val_main_v2_apply,
    val_main_v1_apply, val_main_c_apply, val_main_v0_apply, val_main_v10_apply, val_main_c_1_apply, val_main_v12_apply,
    val_main_c_2_apply, val_main_v14_apply, val_main_c_3_apply]
  have e1 : idx_main_v5 (idx_main_v7 (idx_main_v16 (idx_main_v17 (idx_main_v21 (ix2 k o)))))
      = ix1 (⟨o.val * 512 + k.val / 8, by omega⟩ : Fin 8388608) := funext fun a => Fin.ext (by
    match a with
    | ⟨0, _⟩ => show (o.val * 4096 + k.val) / 8 = o.val * 512 + k.val / 8; omega)
  have e2 : ((idx_main_v6 (idx_main_v8 (idx_main_v16 (idx_main_v17 (idx_main_v21 (ix2 k o)))))) 0).val = k.val % 8 := by
    show (o.val * 4096 + k.val) % 8 = k.val % 8; omega
  have e3 : idx_main_v19 (idx_main_v21 (ix2 k o)) = ix2 o (0 : Fin 1) := funext fun a => Fin.ext (by
    match a with
    | ⟨0, _⟩ => rfl
    | ⟨1, _⟩ => rfl)
  rw [e1, e2, e3, shift_amount _ (by omega), shrsi_host_eq _ _ (by omega)]
  rfl

/-- The reference's result array is `spec` of its three arguments. -/
theorem ref_eq_spec (x0 : (⟨S8192x4096, .f32⟩ : BufTy).Contents (Elt Ideal)) (x1 : (⟨S8388608, .i32⟩ : BufTy).Contents (Elt Ideal))
    (x2 : (⟨S16384x1, .f32⟩ : BufTy).Contents (Elt Ideal)) :
    val_main_v22 (F := Ideal) x0 x1 x2 = spec x0 x1 x2 := by
  funext j
  obtain ⟨b, o, rfl⟩ : ∃ (b : Fin 8192) (o : Fin 16384), j = ix2 b o := ⟨j 0, j 1, eq_ix2 j⟩
  rw [val_main_v22_apply]
  show ∑ k : Fin 4096, x0 (lidx_main_v22 (ix2 b o) k) * val_main_v21 (F := Ideal) x1 x2 (ridx_main_v22 (ix2 b o) k)
      = ∑ i : Fin 4096, x0 (ix2 b i) * weight x1 x2 o i
  refine Finset.sum_congr rfl fun k _ => ?_
  have el : lidx_main_v22 (ix2 b o) k = ix2 b k := funext fun a => Fin.ext (by
    match a with
    | ⟨0, _⟩ => rfl
    | ⟨1, _⟩ => rfl)
  have er : ridx_main_v22 (ix2 b o) k = ix2 k o := funext fun a => Fin.ext (by
    match a with
    | ⟨0, _⟩ => rfl
    | ⟨1, _⟩ => rfl)
  rw [el, er, weight_eq]

end Cert.ReferenceIdeal.RefValue

end
-- ==== Proof.Pieces.lean ====
/-
  What one grid point leaves in the accumulator, case by case.

  At every grid point the body adds the product of the point's `x` tile with the transposed, dequantised weight
  tile to the accumulator (`upd`). At the first point of a run of four (case A) the accumulator is first set to
  zero, so the point leaves `upd` of the zero block; at the two middle points (case B) and the last (case C) it
  leaves `upd` of what the point before left; the last point also copies the accumulator to the output block.
  Each case stores the accumulator (and the output block) whole, so what the case leaves is the payload of its last
  store, its loads reading the whole buffers.
-/
import proofs.«405100_j22162031247999_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- One grid point's update of the accumulator `acc`, from the point's `x` tile `x0`, packed-word tile `x1` and
    scale column `x2`: `acc + x0 · (signs(x1) ⊙ x2)ᵀ`. -/
def upd (x0 : Vec F S1024x1024 .f32) (x1 : Vec F S512x128 .i32) (x2 : Vec F S512x1 .f32) (acc : Vec F S1024x512 .f32) :
    Vec F S1024x512 .f32 :=
  k0_pay1 (k0_pay9 (k0_pay3 x1) x2 (k0_pay4 x1) (k0_pay5 x1) (k0_pay6 x1) (k0_pay7 x1) k0_pay8) x0 acc

/-- The block the first point of a run resets the accumulator to. -/
abbrev zeroAcc : Vec F S1024x512 .f32 := k0_pay2

/-- Case A (first point of a run): the accumulator ends at the update of the zero block. -/
theorem scratch_A (c : Dev nD) (i : grid0.Coords) (a3 : Memref sig .tc .vmem S1024x1024 .f32) (h3 : a3.IsWhole) (a4 : Memref sig .tc .vmem S512x128 .i32) (h4 : a4.IsWhole) (a5 : Memref sig .tc .vmem S512x1 .f32) (h5 : a5.IsWhole) (a6 : Memref sig .tc .vmem S1024x512 .f32) (h6 : a6.IsWhole) (a7 : Memref sig .tc .vmem S1024x512 .f32) (h7 : a7.IsWhole) (hc0 : cond0_0 i) (hc1 : ¬cond0_1 i)
    (x0 : Vec F S1024x1024 .f32) (x1 : Vec F S512x128 .i32) (x2 : Vec F S512x1 .f32) :
    sout0_A_0 c i a3 h3 a4 h4 a5 h5 a6 h6 a7 h7 hc0 hc1 x0 x1 x2 = upd x0 x1 x2 zeroAcc := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x512) hz, View.readCov_unit_zero (S := S1024x512) _ hz]
  unfold upd
  simp only [View.readAt_eq_ld, h3.read_unread, h4.read_unread, h5.read_unread, h7.read_unread,
    View.ld_unit_zero (S := S1024x1024) hz, View.ld_unit_zero (S := S512x128) hz, View.ld_unit_zero (S := S512x1) hz,
    View.ld_unit_zero (S := S1024x512) hz]

/-- Case B (middle points): the accumulator ends at the update of what the point before left. -/
theorem scratch_B (c : Dev nD) (i : grid0.Coords) (a3 : Memref sig .tc .vmem S1024x1024 .f32) (h3 : a3.IsWhole) (a4 : Memref sig .tc .vmem S512x128 .i32) (h4 : a4.IsWhole) (a5 : Memref sig .tc .vmem S512x1 .f32) (h5 : a5.IsWhole) (a6 : Memref sig .tc .vmem S1024x512 .f32) (h6 : a6.IsWhole) (a7 : Memref sig .tc .vmem S1024x512 .f32) (h7 : a7.IsWhole) (hc0 : ¬cond0_0 i) (hc1 : ¬cond0_1 i)
    (x0 : Vec F S1024x1024 .f32) (x1 : Vec F S512x128 .i32) (x2 : Vec F S512x1 .f32) (xs0 : Vec F S1024x512 .f32) :
    sout0_B_0 c i a3 h3 a4 h4 a5 h5 a6 h6 a7 h7 hc0 hc1 x0 x1 x2 xs0 = upd x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  sl_unfold_words
  rw [View.canon_unit_zero (S := S1024x512) hz]
  unfold upd
  simp only [View.readAt_eq_ld, h3.read_unread, h4.read_unread, h5.read_unread, h7.read_unread,
    View.ld_unit_zero (S := S1024x1024) hz, View.ld_unit_zero (S := S512x128) hz, View.ld_unit_zero (S := S512x1) hz,
    View.ld_unit_zero (S := S1024x512) hz]

/-- Case C (last point of a run): the accumulator ends at the update of what the point before left … -/
theorem scratch_C (c : Dev nD) (i : grid0.Coords) (a3 : Memref sig .tc .vmem S1024x1024 .f32) (h3 : a3.IsWhole) (a4 : Memref sig .tc .vmem S512x128 .i32) (h4 : a4.IsWhole) (a5 : Memref sig .tc .vmem S512x1 .f32) (h5 : a5.IsWhole) (a6 : Memref sig .tc .vmem S1024x512 .f32) (h6 : a6.IsWhole) (a7 : Memref sig .tc .vmem S1024x512 .f32) (h7 : a7.IsWhole) (hc0 : ¬cond0_0 i) (hc1 : cond0_1 i)
    (x0 : Vec F S1024x1024 .f32) (x1 : Vec F S512x128 .i32) (x2 : Vec F S512x1 .f32) (xs0 : Vec F S1024x512 .f32) :
    sout0_C_0 c i a3 h3 a4 h4 a5 h5 a6 h6 a7 h7 hc0 hc1 x0 x1 x2 xs0 = upd x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero (S := S1024x512) hz]
  unfold upd
  simp only [View.readAt_eq_ld, h3.read_unread, h4.read_unread, h5.read_unread, h7.read_unread,
    View.ld_unit_zero (S := S1024x1024) hz, View.ld_unit_zero (S := S512x128) hz, View.ld_unit_zero (S := S512x1) hz,
    View.ld_unit_zero (S := S1024x512) hz]

/-- … and the output block, a copy of the accumulator read back after its store, ends at the same value. -/
theorem out_C (c : Dev nD) (i : grid0.Coords) (a3 : Memref sig .tc .vmem S1024x1024 .f32) (h3 : a3.IsWhole) (a4 : Memref sig .tc .vmem S512x128 .i32) (h4 : a4.IsWhole) (a5 : Memref sig .tc .vmem S512x1 .f32) (h5 : a5.IsWhole) (a6 : Memref sig .tc .vmem S1024x512 .f32) (h6 : a6.IsWhole) (a7 : Memref sig .tc .vmem S1024x512 .f32) (h7 : a7.IsWhole) (hc0 : ¬cond0_0 i) (hc1 : cond0_1 i)
    (x0 : Vec F S1024x1024 .f32) (x1 : Vec F S512x128 .i32) (x2 : Vec F S512x1 .f32) (xs0 : Vec F S1024x512 .f32) :
    out0_C_3 c i a3 h3 a4 h4 a5 h5 a6 h6 a7 h7 hc0 hc1 x0 x1 x2 xs0 = upd x0 x1 x2 xs0 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero (S := S1024x512) hz, View.readCov_unit_zero (S := S1024x512) _ hz]
  unfold upd
  simp only [View.readAt_eq_ld, h3.read_unread, h4.read_unread, h5.read_unread, h7.read_unread,
    View.ld_unit_zero (S := S1024x1024) hz, View.ld_unit_zero (S := S512x128) hz, View.ld_unit_zero (S := S512x1) hz,
    View.ld_unit_zero (S := S1024x512) hz]

end Cert.KernelIdeal.Acc

end
-- ==== Proof.LibMatmulNT.lean ====
/-
  A matrix product with the right operand transposed, into a zero accumulator, read at one entry over the
  extended reals.

  For dimension numbers that contract the SECOND axis of both operands, with no batch axis — so that the left
  operand is read at (row, k) and the right at (column, k) — the entry (p, q) of the product of an [A × K] matrix
  with the transpose of a [B × K] matrix is `∑ₖ l[p, k] · r[q, k]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulNT

open Idealize.ShloMosaic Idealize.ShloMosaic.ValueIdx

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_zero_nt_at {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulNT

end
-- ==== Proof.Payload.lean ====
/-
  One grid point's update of the accumulator, read at an entry over the extended reals.

  The weight tile is built plane by plane: plane `p` (shift `7 - p`) holds, at `(q, g)`, the sign carried by bit
  `7 - p` of packed word `(q, g)`; the eight planes are laid side by side along the columns, so column `kk` of
  the tile is plane `kk / 128` at group `kk % 128`; the signs become reals and each row is scaled. The update adds
  to the accumulator the product of the `x` tile with the transpose of that tile:

      upd x0 x1 x2 acc (p, q) = acc (p, q) + ∑ₖₖ x0[p, kk] · (sign(x1[q, kk % 128], 7 - kk / 128) · x2[q, 0]).

  Changes of float format are the identity over the extended reals.
-/
import proofs.«405100_j22162031247999_2_alg».proof.Proof.Pieces
import proofs.«405100_j22162031247999_2_alg».proof.Proof.Spec
import proofs.«405100_j22162031247999_2_alg».proof.Proof.LibMatmulNT
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.KernelIdeal.Acc

open Cert.KernelIdeal Cert.KernelIdeal.Gen Cert.BitLinear

/-! ## Where the tile product reads its operands -/

theorem lhs_dot_0 (i : S1024x512.Idx) (q : dot_S1024x1024_S512x1024_S1024x512_1_1_0_0_n_n.contr.Idx) : (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_dot_1 (i : S1024x512.Idx) (q : dot_S1024x1024_S512x1024_S1024x512_1_1_0_0_n_n.contr.Idx) : (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_dot_0 (i : S1024x512.Idx) (q : dot_S1024x1024_S512x1024_S1024x512_1_1_0_0_n_n.contr.Idx) : (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_dot_1 (i : S1024x512.Idx) (q : dot_S1024x1024_S512x1024_S1024x512_1_1_0_0_n_n.contr.Idx) : (dot_S1024x1024_S512x1024_S1024x512_1_1_0_0_n_n.rhsIdx i q 1).val = (q ⟨0, by decide⟩).val :=
  dot_S1024x1024_S512x1024_S1024x512_1_1_0_0_n_n.rhsIdx_val_of_single rfl i q

/-! ## The sign tile: eight planes side by side -/

/-- Plane `p` of the signs of a packed-word tile: bit `7 - p` of every word, as `±1`. -/
def plane (x1 : IVec S512x128 32) (p : Fin 8) : IVec S512x128 32 :=
  fun j => signWord (x1 j) (BitVec.ofNat 32 (7 - p.val))

set_option maxHeartbeats 1600000 in
/-- Eight [512, 128] pieces side by side along the columns, read at column `128·p + g`: piece `p` at group `g`. -/
theorem concat8_apply (v : Fin 8 → IVec S512x128 32)
    (h : Shape.Concatenates ([(⟨S512x128, v 0⟩ : (s : Shape) × (s.Idx → BitVec 32)), (⟨S512x128, v 1⟩ : (s : Shape) × (s.Idx → BitVec 32)), (⟨S512x128, v 2⟩ : (s : Shape) × (s.Idx → BitVec 32)), (⟨S512x128, v 3⟩ : (s : Shape) × (s.Idx → BitVec 32)), (⟨S512x128, v 4⟩ : (s : Shape) × (s.Idx → BitVec 32)), (⟨S512x128, v 5⟩ : (s : Shape) × (s.Idx → BitVec 32)), (⟨S512x128, v 6⟩ : (s : Shape) × (s.Idx → BitVec 32)), (⟨S512x128, v 7⟩ : (s : Shape) × (s.Idx → BitVec 32))].map (·.1)) S512x1024 1)
    (q : Fin 512) (p : Fin 8) (g : Fin 128) (kk : Fin 1024) (hkk : kk.val = p.val * 128 + g.val) :
    concatenate S512x1024 1 [(⟨S512x128, v 0⟩ : (s : Shape) × (s.Idx → BitVec 32)), (⟨S512x128, v 1⟩ : (s : Shape) × (s.Idx → BitVec 32)), (⟨S512x128, v 2⟩ : (s : Shape) × (s.Idx → BitVec 32)), (⟨S512x128, v 3⟩ : (s : Shape) × (s.Idx → BitVec 32)), (⟨S512x128, v 4⟩ : (s : Shape) × (s.Idx → BitVec 32)), (⟨S512x128, v 5⟩ : (s : Shape) × (s.Idx → BitVec 32)), (⟨S512x128, v 6⟩ : (s : Shape) × (s.Idx → BitVec 32)), (⟨S512x128, v 7⟩ : (s : Shape) × (s.Idx → BitVec 32))] h (ix2 q kk) = v p (ix2 q g) := by
  have hi : ∀ b : Fin S512x128.rank, b.cast (rfl : S512x128.rank = S512x1024.rank) ≠ (1 : Fin 2) →
      ((ix2 q g : S512x128.Idx) b).val = ((ix2 q kk : S512x1024.Idx) (b.cast rfl)).val := by
    intro b hb
    match b with
    | ⟨0, _⟩ => rfl
    | ⟨1, _⟩ => exact absurd rfl hb
  fin_cases p
  · have hk' : kk.val = 0 * 128 + g.val := hkk
    exact concatenate_apply_piece (1 : Fin 2) _ h (ix2 q kk) 0 (by show (0 : ℕ) < 8; omega) S512x128 (v 0) rfl rfl 0 rfl
      (ix2 q g) hi (by show 0 + g.val = kk.val; omega)
  · have hk' : kk.val = 1 * 128 + g.val := hkk
    exact concatenate_apply_piece (1 : Fin 2) _ h (ix2 q kk) 1 (by show (1 : ℕ) < 8; omega) S512x128 (v 1) rfl rfl 128 rfl
      (ix2 q g) hi (by show 128 + g.val = kk.val; omega)
  · have hk' : kk.val = 2 * 128 + g.val := hkk
    exact concatenate_apply_piece (1 : Fin 2) _ h (ix2 q kk) 2 (by show (2 : ℕ) < 8; omega) S512x128 (v 2) rfl rfl 256 rfl
      (ix2 q g) hi (by show 256 + g.val = kk.val; omega)
  · have hk' : kk.val = 3 * 128 + g.val := hkk
    exact concatenate_apply_piece (1 : Fin 2) _ h (ix2 q kk) 3 (by show (3 : ℕ) < 8; omega) S512x128 (v 3) rfl rfl 384 rfl
      (ix2 q g) hi (by show 384 + g.val = kk.val; omega)
  · have hk' : kk.val = 4 * 128 + g.val := hkk
    exact concatenate_apply_piece (1 : Fin 2) _ h (ix2 q kk) 4 (by show (4 : ℕ) < 8; omega) S512x128 (v 4) rfl rfl 512 rfl
      (ix2 q g) hi (by show 512 + g.val = kk.val; omega)
  · have hk' : kk.val = 5 * 128 + g.val := hkk
    exact concatenate_apply_piece (1 : Fin 2) _ h (ix2 q kk) 5 (by show (5 : ℕ) < 8; omega) S512x128 (v 5) rfl rfl 640 rfl
      (ix2 q g) hi (by show 640 + g.val = kk.val; omega)
  · have hk' : kk.val = 6 * 128 + g.val := hkk
    exact concatenate_apply_piece (1 : Fin 2) _ h (ix2 q kk) 6 (by show (6 : ℕ) < 8; omega) S512x128 (v 6) rfl rfl 768 rfl
      (ix2 q g) hi (by show 768 + g.val = kk.val; omega)
  · have hk' : kk.val = 7 * 128 + g.val := hkk
    exact concatenate_apply_piece (1 : Fin 2) _ h (ix2 q kk) 7 (by show (7 : ℕ) < 8; omega) S512x128 (v 7) rfl rfl 896 rfl
      (ix2 q g) hi (by show 896 + g.val = kk.val; omega)

/-- The dequantised weight tile at column `128·P + G` of row `q`: the sign of plane `P` (bit `7 - P`) of packed word
    `(q, G)`, as a real, times the row's scale. -/
theorem wtile_plane_apply (x1 : Vec Ideal S512x128 .i32) (x2 : Vec Ideal S512x1 .f32) (q : Fin 512) (P : Fin 8) (G : Fin 128)
    (kk : Fin 1024) (hkk : kk.val = P.val * 128 + G.val) :
    k0_pay9 (F := Ideal) (k0_pay3 x1) x2 (k0_pay4 x1) (k0_pay5 x1) (k0_pay6 x1) (k0_pay7 x1) k0_pay8 (ix2 q kk)
      = (FloatOps.sitofp (F := Ideal) .f32 (signWord (x1 (ix2 q G)) (BitVec.ofNat 32 (7 - P.val))) : EReal)
        * x2 (ix2 q (0 : Fin 1)) := by
  have e3 : k0_pay3 (F := Ideal) x1 = x1 := shapeCast_self _ _
  have hw : k0_pay9 (F := Ideal) (k0_pay3 x1) x2 (k0_pay4 x1) (k0_pay5 x1) (k0_pay6 x1) (k0_pay7 x1) k0_pay8
      = truncf .bf16 (mulf (sitofp .f32 (concatenate S512x1024 1
        [(⟨S512x128, subi (muli (andi (shrsi (k0_pay3 (F := Ideal) x1) (broadcast S512x128 7#32)) (broadcast S512x128 1#32)) (broadcast S512x128 2#32)) (broadcast S512x128 1#32)⟩ : (s : Shape) × (s.Idx → BitVec 32)),
        (⟨S512x128, subi (muli (andi (shrsi (k0_pay3 (F := Ideal) x1) (broadcast S512x128 6#32)) (broadcast S512x128 1#32)) (broadcast S512x128 2#32)) (broadcast S512x128 1#32)⟩ : (s : Shape) × (s.Idx → BitVec 32)),
        (⟨S512x128, subi (muli (andi (shrsi (k0_pay3 (F := Ideal) x1) (broadcast S512x128 5#32)) (broadcast S512x128 1#32)) (broadcast S512x128 2#32)) (broadcast S512x128 1#32)⟩ : (s : Shape) × (s.Idx → BitVec 32)),
        (⟨S512x128, subi (muli (andi (shrsi (k0_pay3 (F := Ideal) x1) (broadcast S512x128 4#32)) (broadcast S512x128 1#32)) (broadcast S512x128 2#32)) (broadcast S512x128 1#32)⟩ : (s : Shape) × (s.Idx → BitVec 32)),
        (⟨S512x128, subi (muli (andi (shrsi (k0_pay3 (F := Ideal) x1) (broadcast S512x128 3#32)) (broadcast S512x128 1#32)) (broadcast S512x128 2#32)) (broadcast S512x128 1#32)⟩ : (s : Shape) × (s.Idx → BitVec 32)),
        (⟨S512x128, subi (muli (andi (shrsi (k0_pay3 (F := Ideal) x1) (broadcast S512x128 2#32)) (broadcast S512x128 1#32)) (broadcast S512x128 2#32)) (broadcast S512x128 1#32)⟩ : (s : Shape) × (s.Idx → BitVec 32)),
        (⟨S512x128, subi (muli (andi (shrsi (k0_pay3 (F := Ideal) x1) (broadcast S512x128 1#32)) (broadcast S512x128 1#32)) (broadcast S512x128 2#32)) (broadcast S512x128 1#32)⟩ : (s : Shape) × (s.Idx → BitVec 32)),
        (⟨S512x128, subi (muli (andi (shrsi (k0_pay3 (F := Ideal) x1) (broadcast S512x128 0#32)) (broadcast S512x128 1#32)) (broadcast S512x128 2#32)) (broadcast S512x128 1#32)⟩ : (s : Shape) × (s.Idx → BitVec 32))]
        concatenates_S512x128_S512x128_S512x128_S512x128_S512x128_S512x128_S512x128_S512x128_S512x1024_d1))
        (broadcastTo S512x1024 x2 broadcasts_S512x1_S512x1024)) bitsLt_bf16_f32 := rfl
  rw [hw, e3]
  show FloatOps.sitofp (F := Ideal) .f32 (concatenate S512x1024 1
        [(⟨S512x128, subi (muli (andi (shrsi x1 (broadcast S512x128 7#32)) (broadcast S512x128 1#32)) (broadcast S512x128 2#32)) (broadcast S512x128 1#32)⟩ : (s : Shape) × (s.Idx → BitVec 32)),
        (⟨S512x128, subi (muli (andi (shrsi x1 (broadcast S512x128 6#32)) (broadcast S512x128 1#32)) (broadcast S512x128 2#32)) (broadcast S512x128 1#32)⟩ : (s : Shape) × (s.Idx → BitVec 32)),
        (⟨S512x128, subi (muli (andi (shrsi x1 (broadcast S512x128 5#32)) (broadcast S512x128 1#32)) (broadcast S512x128 2#32)) (broadcast S512x128 1#32)⟩ : (s : Shape) × (s.Idx → BitVec 32)),
        (⟨S512x128, subi (muli (andi (shrsi x1 (broadcast S512x128 4#32)) (broadcast S512x128 1#32)) (broadcast S512x128 2#32)) (broadcast S512x128 1#32)⟩ : (s : Shape) × (s.Idx → BitVec 32)),
        (⟨S512x128, subi (muli (andi (shrsi x1 (broadcast S512x128 3#32)) (broadcast S512x128 1#32)) (broadcast S512x128 2#32)) (broadcast S512x128 1#32)⟩ : (s : Shape) × (s.Idx → BitVec 32)),
        (⟨S512x128, subi (muli (andi (shrsi x1 (broadcast S512x128 2#32)) (broadcast S512x128 1#32)) (broadcast S512x128 2#32)) (broadcast S512x128 1#32)⟩ : (s : Shape) × (s.Idx → BitVec 32)),
        (⟨S512x128, subi (muli (andi (shrsi x1 (broadcast S512x128 1#32)) (broadcast S512x128 1#32)) (broadcast S512x128 2#32)) (broadcast S512x128 1#32)⟩ : (s : Shape) × (s.Idx → BitVec 32)),
        (⟨S512x128, subi (muli (andi (shrsi x1 (broadcast S512x128 0#32)) (broadcast S512x128 1#32)) (broadcast S512x128 2#32)) (broadcast S512x128 1#32)⟩ : (s : Shape) × (s.Idx → BitVec 32))]
        concatenates_S512x128_S512x128_S512x128_S512x128_S512x128_S512x128_S512x128_S512x128_S512x1024_d1 (ix2 q kk))
      * broadcastTo S512x1024 x2 broadcasts_S512x1_S512x1024 (ix2 q kk) = _
  rw [show concatenate S512x1024 1
        [(⟨S512x128, subi (muli (andi (shrsi x1 (broadcast S512x128 7#32)) (broadcast S512x128 1#32)) (broadcast S512x128 2#32)) (broadcast S512x128 1#32)⟩ : (s : Shape) × (s.Idx → BitVec 32)),
        (⟨S512x128, subi (muli (andi (shrsi x1 (broadcast S512x128 6#32)) (broadcast S512x128 1#32)) (broadcast S512x128 2#32)) (broadcast S512x128 1#32)⟩ : (s : Shape) × (s.Idx → BitVec 32)),
        (⟨S512x128, subi (muli (andi (shrsi x1 (broadcast S512x128 5#32)) (broadcast S512x128 1#32)) (broadcast S512x128 2#32)) (broadcast S512x128 1#32)⟩ : (s : Shape) × (s.Idx → BitVec 32)),
        (⟨S512x128, subi (muli (andi (shrsi x1 (broadcast S512x128 4#32)) (broadcast S512x128 1#32)) (broadcast S512x128 2#32)) (broadcast S512x128 1#32)⟩ : (s : Shape) × (s.Idx → BitVec 32)),
        (⟨S512x128, subi (muli (andi (shrsi x1 (broadcast S512x128 3#32)) (broadcast S512x128 1#32)) (broadcast S512x128 2#32)) (broadcast S512x128 1#32)⟩ : (s : Shape) × (s.Idx → BitVec 32)),
        (⟨S512x128, subi (muli (andi (shrsi x1 (broadcast S512x128 2#32)) (broadcast S512x128 1#32)) (broadcast S512x128 2#32)) (broadcast S512x128 1#32)⟩ : (s : Shape) × (s.Idx → BitVec 32)),
        (⟨S512x128, subi (muli (andi (shrsi x1 (broadcast S512x128 1#32)) (broadcast S512x128 1#32)) (broadcast S512x128 2#32)) (broadcast S512x128 1#32)⟩ : (s : Shape) × (s.Idx → BitVec 32)),
        (⟨S512x128, subi (muli (andi (shrsi x1 (broadcast S512x128 0#32)) (broadcast S512x128 1#32)) (broadcast S512x128 2#32)) (broadcast S512x128 1#32)⟩ : (s : Shape) × (s.Idx → BitVec 32))]
        concatenates_S512x128_S512x128_S512x128_S512x128_S512x128_S512x128_S512x128_S512x128_S512x1024_d1 (ix2 q kk)
      = (![subi (muli (andi (shrsi x1 (broadcast S512x128 7#32)) (broadcast S512x128 1#32)) (broadcast S512x128 2#32)) (broadcast S512x128 1#32),
        subi (muli (andi (shrsi x1 (broadcast S512x128 6#32)) (broadcast S512x128 1#32)) (broadcast S512x128 2#32)) (broadcast S512x128 1#32),
        subi (muli (andi (shrsi x1 (broadcast S512x128 5#32)) (broadcast S512x128 1#32)) (broadcast S512x128 2#32)) (broadcast S512x128 1#32),
        subi (muli (andi (shrsi x1 (broadcast S512x128 4#32)) (broadcast S512x128 1#32)) (broadcast S512x128 2#32)) (broadcast S512x128 1#32),
        subi (muli (andi (shrsi x1 (broadcast S512x128 3#32)) (broadcast S512x128 1#32)) (broadcast S512x128 2#32)) (broadcast S512x128 1#32),
        subi (muli (andi (shrsi x1 (broadcast S512x128 2#32)) (broadcast S512x128 1#32)) (broadcast S512x128 2#32)) (broadcast S512x128 1#32),
        subi (muli (andi (shrsi x1 (broadcast S512x128 1#32)) (broadcast S512x128 1#32)) (broadcast S512x128 2#32)) (broadcast S512x128 1#32),
        subi (muli (andi (shrsi x1 (broadcast S512x128 0#32)) (broadcast S512x128 1#32)) (broadcast S512x128 2#32)) (broadcast S512x128 1#32)] : Fin 8 → IVec S512x128 32) P (ix2 q G)
      from concat8_apply ![subi (muli (andi (shrsi x1 (broadcast S512x128 7#32)) (broadcast S512x128 1#32)) (broadcast S512x128 2#32)) (broadcast S512x128 1#32),
        subi (muli (andi (shrsi x1 (broadcast S512x128 6#32)) (broadcast S512x128 1#32)) (broadcast S512x128 2#32)) (broadcast S512x128 1#32),
        subi (muli (andi (shrsi x1 (broadcast S512x128 5#32)) (broadcast S512x128 1#32)) (broadcast S512x128 2#32)) (broadcast S512x128 1#32),
        subi (muli (andi (shrsi x1 (broadcast S512x128 4#32)) (broadcast S512x128 1#32)) (broadcast S512x128 2#32)) (broadcast S512x128 1#32),
        subi (muli (andi (shrsi x1 (broadcast S512x128 3#32)) (broadcast S512x128 1#32)) (broadcast S512x128 2#32)) (broadcast S512x128 1#32),
        subi (muli (andi (shrsi x1 (broadcast S512x128 2#32)) (broadcast S512x128 1#32)) (broadcast S512x128 2#32)) (broadcast S512x128 1#32),
        subi (muli (andi (shrsi x1 (broadcast S512x128 1#32)) (broadcast S512x128 1#32)) (broadcast S512x128 2#32)) (broadcast S512x128 1#32),
        subi (muli (andi (shrsi x1 (broadcast S512x128 0#32)) (broadcast S512x128 1#32)) (broadcast S512x128 2#32)) (broadcast S512x128 1#32)] _ q P G kk hkk,
    broadcastTo_apply x2 broadcasts_S512x1_S512x1024 (ix2 q kk) (ix2 q (0 : Fin 1)) (fun a => match a with
      | ⟨0, _⟩ => by show q.val = if (512 : Nat) = 1 then 0 else q.val; rw [if_neg (by decide)]
      | ⟨1, _⟩ => by show 0 = if (1 : Nat) = 1 then 0 else _; rw [if_pos rfl])]
  fin_cases P <;> rfl

/-- The same at column `kk`: plane `kk / 128`, group `kk % 128`. -/
theorem wtile_apply (x1 : Vec Ideal S512x128 .i32) (x2 : Vec Ideal S512x1 .f32) (q : Fin 512) (kk : Fin 1024) :
    k0_pay9 (F := Ideal) (k0_pay3 x1) x2 (k0_pay4 x1) (k0_pay5 x1) (k0_pay6 x1) (k0_pay7 x1) k0_pay8 (ix2 q kk)
      = (FloatOps.sitofp (F := Ideal) .f32
          (signWord (x1 (ix2 q (⟨kk.val % 128, Nat.mod_lt _ (by decide)⟩ : Fin 128))) (BitVec.ofNat 32 (7 - kk.val / 128))) : EReal)
        * x2 (ix2 q (0 : Fin 1)) :=
  wtile_plane_apply x1 x2 q ⟨kk.val / 128, by have := kk.isLt; omega⟩ ⟨kk.val % 128, Nat.mod_lt _ (by decide)⟩ kk (by
    show kk.val = kk.val / 128 * 128 + kk.val % 128; omega)

/-! ## The update at an entry -/

/-- The zero block is zero. -/
theorem zeroAcc_apply (j : S1024x512.Idx) : zeroAcc (F := Ideal) j = 0 := by
  have hz0 : zeroAcc (F := Ideal) = shapeCast S1024x512 (broadcast S1024x512 (Scalar.ofBits (F := Ideal) .f32 0x00000000#32))
      shapeCasts_S1024x512_S1024x512 := rfl
  rw [hz0, shapeCast_self]
  exact Ideal.ofBits_zero_f32

/-- `upd` at `(p, q)`: the accumulator there plus the sum over the tile's 1024 columns. -/
theorem upd_apply (x0 : Vec Ideal S1024x1024 .f32) (x1 : Vec Ideal S512x128 .i32) (x2 : Vec Ideal S512x1 .f32)
    (acc : Vec Ideal S1024x512 .f32) (p : Fin 1024) (q : Fin 512) :
    upd (F := Ideal) x0 x1 x2 acc (ix2 p q)
      = acc (ix2 p q) + ∑ kk : Fin 1024, x0 (ix2 p kk) *
          ((FloatOps.sitofp (F := Ideal) .f32
              (signWord (x1 (ix2 q (⟨kk.val % 128, Nat.mod_lt _ (by decide)⟩ : Fin 128))) (BitVec.ofNat 32 (7 - kk.val / 128))) : EReal)
            * x2 (ix2 q (0 : Fin 1))) := by
  have e0 : shapeCast S1024x1024 x0 shapeCasts_S1024x1024_S1024x1024 = x0 := shapeCast_self _ _
  have hu : upd (F := Ideal) x0 x1 x2 acc
      = shapeCast S1024x512 (addf acc (matmul dot_S1024x1024_S512x1024_S1024x512_1_1_0_0_n_n none
          (truncf .bf16 (shapeCast S1024x1024 x0 shapeCasts_S1024x1024_S1024x1024) bitsLt_bf16_f32)
          (k0_pay9 (F := Ideal) (k0_pay3 x1) x2 (k0_pay4 x1) (k0_pay5 x1) (k0_pay6 x1) (k0_pay7 x1) k0_pay8)
          (constant (F := Ideal) S1024x512 .f32 0x00000000#32))) shapeCasts_S1024x512_S1024x512 := rfl
  rw [hu, e0, shapeCast_self]
  show acc (ix2 p q) + FloatOps.matmul dot_S1024x1024_S512x1024_S1024x512_1_1_0_0_n_n none (truncf .bf16 x0 bitsLt_bf16_f32)
      (k0_pay9 (F := Ideal) (k0_pay3 x1) x2 (k0_pay4 x1) (k0_pay5 x1) (k0_pay6 x1) (k0_pay7 x1) k0_pay8)
      (constant (F := Ideal) S1024x512 .f32 0x00000000#32) (ix2 p q) = _
  rw [MatmulNT.matmul_zero_nt_at dot_S1024x1024_S512x1024_S1024x512_1_1_0_0_n_n rfl rfl lhs_dot_0 lhs_dot_1 rhs_dot_0 rhs_dot_1]
  refine congrArg (acc (ix2 p q) + ·) (Finset.sum_congr rfl fun kk _ => ?_)
  rw [wtile_apply]
  rfl

end Cert.KernelIdeal.Acc

end
-- ==== Proof.Blocks.lean ====
/-
  The input blocks of a grid point, read at an index of the argument arrays.

  The grid has 8 × 32 × 4 points; point `t` has row tile `t / 128`, output-column tile `t / 4 % 32` and reduction
  tile `t % 4`. Before the call the host reshapes `bp` to [16384, 512] (word `(o, c)` is flat word `512·o + c`) and
  permutes the columns of `x` inside each tile of 1024: as [8192, 4, 128, 8] the last two axes are swapped, so
  column `1024·s + 128·p + g` of the permuted array is column `1024·s + 8·g + p` of `x` — the column `col s kk` of
  the specification at position `kk = 128·p + g`.
-/
import proofs.«405100_j22162031247999_2_alg».proof.Proof.Gen.KernelIdeal.Frame
import proofs.«405100_j22162031247999_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.Acc

open Cert.KernelIdeal Cert.KernelIdeal.Gen Cert.BitLinear

variable {F : FTy → Type} [FloatOps F]
variable (m : (ℓ : Loc nD τ sig) → Buf (Elt F) ℓ)

/-- The four windows' block indices at point `t`, decided over the grid. -/
theorem idx_facts : ∀ t : Fin cfg0.N,
    win0_0.index t (0 : Fin 2) = t.val / 128 ∧ win0_0.index t (1 : Fin 2) = t.val % 4
    ∧ win0_1.index t (0 : Fin 2) = t.val / 4 % 32 ∧ win0_1.index t (1 : Fin 2) = t.val % 4
    ∧ win0_2.index t (0 : Fin 2) = t.val / 4 % 32 ∧ win0_2.index t (1 : Fin 2) = 0
    ∧ win0_3.index t (0 : Fin 2) = t.val / 128 ∧ win0_3.index t (1 : Fin 2) = t.val / 4 % 32 :=
  (by decide +kernel : ∀ t : Fin grid0.N, _)

/-- The point's `x` tile, packed-word tile and scale column, at their literal types. -/
abbrev xblk (c : Dev nD) (t : Fin cfg0.N) : Vec F S1024x1024 .f32 := iblk m c 0 t
abbrev bblk (c : Dev nD) (t : Fin cfg0.N) : Vec F S512x128 .i32 := iblk m c 1 t
abbrev sblk (c : Dev nD) (t : Fin cfg0.N) : Vec F S512x1 .f32 := iblk m c 2 t

/-! ## What the host operations before the call leave in the staged arrays -/

theorem V_v3 (c : Dev nD) : (V m c main_v3 : S8192x4096.Idx → Elt F .f32)
    = shapeCast S8192x4096 (transpose S8192x4x8x128 [0, 1, 3, 2]
        (shapeCast S8192x4x128x8 (m ((c : Thread nD τ).loc main_arg0)) shapeCasts_S8192x4096_S8192x4x128x8)
        transposes_S8192x4x128x8_S8192x4x8x128_0_1_3_2) shapeCasts_S8192x4x8x128_S8192x4096 := by
  dsimp only [V, hostOps0]; after_results; rfl

theorem V_v0 (c : Dev nD) : (V m c main_v0 : S16384x512.Idx → Elt F .i32)
    = shapeCast S16384x512 (m ((c : Thread nD τ).loc main_arg1)) shapeCasts_S8388608_S16384x512 := by
  dsimp only [V, hostOps0]; after_results; rfl

/-- The host's column permutation at column `1024·s + kk`: column `col s kk` of the operand. -/
theorem perm_apply {α : Type} (x : S8192x4096.Idx → α) (r : Fin 8192) (s : Fin 4) (kk : Fin 1024) (j : Fin 4096)
    (hj : j.val = s.val * 1024 + kk.val) :
    shapeCast S8192x4096 (transpose S8192x4x8x128 [0, 1, 3, 2]
        (shapeCast S8192x4x128x8 x shapeCasts_S8192x4096_S8192x4x128x8)
        transposes_S8192x4x128x8_S8192x4x8x128_0_1_3_2) shapeCasts_S8192x4x8x128_S8192x4096 (ix2 r j)
      = x (ix2 r (col s.val kk)) := by
  have hr := r.isLt
  have hs := s.isLt
  have hkk := kk.isLt
  rw [shapeCast_apply _ shapeCasts_S8192x4x8x128_S8192x4096 (ix2 r j)
      (ix4 r s (⟨kk.val / 128, by omega⟩ : Fin 8) (⟨kk.val % 128, by omega⟩ : Fin 128))
      (by rw [Shape.rowMajor_val_four, Shape.rowMajor_val_two]
          show ((r.val * 4 + s.val) * 8 + kk.val / 128) * 128 + kk.val % 128 = r.val * 4096 + j.val
          omega),
    transpose_apply [0, 1, 3, 2] _ transposes_S8192x4x128x8_S8192x4x8x128_0_1_3_2 _
      (ix4 r s (⟨kk.val % 128, by omega⟩ : Fin 128) (⟨kk.val / 128, by omega⟩ : Fin 8))
      (fun b => match b with
        | ⟨0, _⟩ => rfl
        | ⟨1, _⟩ => rfl
        | ⟨2, _⟩ => rfl
        | ⟨3, _⟩ => rfl),
    shapeCast_apply x shapeCasts_S8192x4096_S8192x4x128x8 _ (ix2 r (col s.val kk))
      (by rw [Shape.rowMajor_val_two, Shape.rowMajor_val_four]
          show r.val * 4096 + (s.val % 4 * 1024 + (kk.val % 128 * 8 + kk.val / 128))
            = ((r.val * 4 + s.val) * 128 + kk.val % 128) * 8 + kk.val / 128
          omega)]

/-! ## The blocks -/

/-- The `x` tile of point `t` at `(p, kk)`: row `1024·(t / 128) + p`, column `col (t % 4) kk` of `x`. -/
theorem xblk_apply (c : Dev nD) (t : Fin cfg0.N) (p kk : Fin 1024) (R : Fin 8192) (s : ℕ)
    (hR : R.val = t.val / 128 * 1024 + p.val) (hs : t.val % 4 = s % 4) :
    xblk m c t (ix2 p kk) = m ((c : Thread nD τ).loc main_arg0) (ix2 R (col s kk)) := by
  obtain ⟨e0, e1, -⟩ := idx_facts t
  have hp := p.isLt
  have hkk := kk.isLt
  have hcol : col s kk = col (⟨t.val % 4, Nat.mod_lt _ (by decide)⟩ : Fin 4).val kk := by
    apply Fin.ext
    show s % 4 * 1024 + _ = t.val % 4 % 4 * 1024 + _
    omega
  show V m c main_v3 (((cfg0.win 0).blk t).view.emb (ix2 p kk)) = _
  have hemb : ((cfg0.win 0).blk t).view.emb (ix2 p kk)
      = ix2 R (⟨t.val % 4 * 1024 + kk.val, by omega⟩ : Fin 4096) := by
    funext a; apply Fin.ext
    match a with
    | ⟨0, _⟩ => show win0_0.index t (0 : Fin 2) * 1024 + 1 * p.val = R.val; rw [e0]; omega
    | ⟨1, _⟩ => show win0_0.index t (1 : Fin 2) * 1024 + 1 * kk.val = t.val % 4 * 1024 + kk.val; rw [e1]; omega
  rw [hemb, V_v3, perm_apply _ R ⟨t.val % 4, Nat.mod_lt _ (by decide)⟩ kk _ rfl, hcol]

/-- The packed-word tile of point `t` at `(q, g)`: flat word `512·(512·(t / 4 % 32) + q) + 128·(t % 4) + g` of `bp`. -/
theorem bblk_apply (c : Dev nD) (t : Fin cfg0.N) (q : Fin 512) (g : Fin 128) (W : Fin 8388608)
    (hW : W.val = (t.val / 4 % 32 * 512 + q.val) * 512 + (t.val % 4 * 128 + g.val)) :
    bblk m c t (ix2 q g) = m ((c : Thread nD τ).loc main_arg1) (ix1 W) := by
  obtain ⟨-, -, e2, e3, -⟩ := idx_facts t
  have hq := q.isLt
  have hg := g.isLt
  show V m c main_v0 (((cfg0.win 1).blk t).view.emb (ix2 q g)) = _
  have hemb : ((cfg0.win 1).blk t).view.emb (ix2 q g)
      = ix2 (⟨t.val / 4 % 32 * 512 + q.val, by omega⟩ : Fin 16384) (⟨t.val % 4 * 128 + g.val, by omega⟩ : Fin 512) := by
    funext a; apply Fin.ext
    match a with
    | ⟨0, _⟩ => show win0_1.index t (0 : Fin 2) * 512 + 1 * q.val = t.val / 4 % 32 * 512 + q.val; rw [e2]; omega
    | ⟨1, _⟩ => show win0_1.index t (1 : Fin 2) * 128 + 1 * g.val = t.val % 4 * 128 + g.val; rw [e3]; omega
  rw [hemb, V_v0, shapeCast_apply _ shapeCasts_S8388608_S16384x512 _ (ix1 W)
    (by rw [Shape.rowMajor_val_one, Shape.rowMajor_val_two]
        show W.val = (t.val / 4 % 32 * 512 + q.val) * 512 + (t.val % 4 * 128 + g.val)
        exact hW)]

/-- The scale column of point `t` at row `q`: row `512·(t / 4 % 32) + q` of `scale`. -/
theorem sblk_apply (c : Dev nD) (t : Fin cfg0.N) (q : Fin 512) (O : Fin 16384)
    (hO : O.val = t.val / 4 % 32 * 512 + q.val) :
    sblk m c t (ix2 q (0 : Fin 1)) = m ((c : Thread nD τ).loc main_arg2) (ix2 O (0 : Fin 1)) := by
  obtain ⟨-, -, -, -, e4, e5, -⟩ := idx_facts t
  have hq := q.isLt
  show V m c main_arg2 (((cfg0.win 2).blk t).view.emb (ix2 q (0 : Fin 1))) = _
  have hemb : ((cfg0.win 2).blk t).view.emb (ix2 q (0 : Fin 1)) = ix2 O (0 : Fin 1) := by
    funext a; apply Fin.ext
    match a with
    | ⟨0, _⟩ => show win0_2.index t (0 : Fin 2) * 512 + 1 * q.val = O.val; rw [e4]; omega
    | ⟨1, _⟩ => show win0_2.index t (1 : Fin 2) * 1 + 1 * 0 = 0; rw [e5]
  rw [hemb, V_main_arg2]

end Cert.KernelIdeal.Acc

end
-- ==== Proof.Fold.lean ====
/-
  The kernel's result array is `spec` of its arguments.

  A run of four consecutive grid points shares its row tile and its output-column tile and walks the four reduction
  tiles. The accumulator after the run's last point is zero plus the four points' tile products (the fold of the
  per-point update from the reset), and that last point copies it to the output block, which is written back to
  block (row tile, column tile) of the result. At entry `(p, q)` of that block the four tile products are the sums
  over the positions of tiles 0 … 3 of `x[R, col s kk] · weight[O, col s kk]` for the entry's row `R` and output
  column `O`; together they are the sum over all 4096 columns: `spec` at `(R, O)`. The flushing points' blocks tile
  the result array.
-/
import proofs.«405100_j22162031247999_2_alg».proof.Proof.Gen.KernelIdeal.Value
import proofs.«405100_j22162031247999_2_alg».proof.Proof.Pieces
import proofs.«405100_j22162031247999_2_alg».proof.Proof.Payload
import proofs.«405100_j22162031247999_2_alg».proof.Proof.Blocks
import proofs.«405100_j22162031247999_2_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Value Cert.BitLinear

variable (m : (ℓ : Loc nD τ sig) → Buf (Elt Ideal) ℓ) (ρ : Dev nD → PrngReg)

/-- The three argument arrays at launch, at their literal types. -/
abbrev xarr (c : Dev nD) : (⟨2, ![8192, 4096]⟩ : Shape).Idx → EReal := m ((c : Thread nD τ).loc main_arg0)
abbrev barr (c : Dev nD) : (⟨1, ![8388608]⟩ : Shape).Idx → BitVec 32 := m ((c : Thread nD τ).loc main_arg1)
abbrev sarr (c : Dev nD) : (⟨2, ![16384, 1]⟩ : Shape).Idx → EReal := m ((c : Thread nD τ).loc main_arg2)

/-! ## What a point does to the accumulator -/

/-- At the first point of a run the accumulator becomes the update of the zero block, whatever it held. -/
theorem scAt_reset (c : Dev nD) (n : ℕ) (hb : n < cfg0.N) (h0 : n % 4 = 0) (acc : Vec Ideal S1024x512 .f32) :
    scAt0_0 m c n hb acc = upd (xblk m c (⟨n, hb⟩ : Fin cfg0.N)) (bblk m c (⟨n, hb⟩ : Fin cfg0.N)) (sblk m c (⟨n, hb⟩ : Fin cfg0.N)) zeroAcc := by
  have h1 : ¬n % 4 = 3 := by omega
  unfold scAt0_0
  rw [dif_pos h0, dif_neg h1]
  exact scratch_A (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))

/-- At every other point it becomes the update of what it held. -/
theorem scAt_step (c : Dev nD) (n : ℕ) (hb : n < cfg0.N) (h0 : ¬n % 4 = 0) (acc : Vec Ideal S1024x512 .f32) :
    scAt0_0 m c n hb acc = upd (xblk m c (⟨n, hb⟩ : Fin cfg0.N)) (bblk m c (⟨n, hb⟩ : Fin cfg0.N)) (sblk m c (⟨n, hb⟩ : Fin cfg0.N)) acc := by
  unfold scAt0_0
  rw [dif_neg h0]
  by_cases h1 : n % 4 = 3
  · rw [dif_pos h1]
    exact scratch_C (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc
  · rw [dif_neg h1]
    exact scratch_B (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc

/-- Point `n`'s tile product at entry `(p, q)` (zero past the grid, where it is never used). -/
def addend (c : Dev nD) (n : ℕ) (p : Fin 1024) (q : Fin 512) : EReal :=
  if h : n < cfg0.N then
    ∑ kk : Fin 1024, xblk m c (⟨n, h⟩ : Fin cfg0.N) (ix2 p kk) *
      ((FloatOps.sitofp (F := Ideal) .f32
          (signWord (bblk m c (⟨n, h⟩ : Fin cfg0.N) (ix2 q (⟨kk.val % 128, Nat.mod_lt _ (by decide)⟩ : Fin 128)))
            (BitVec.ofNat 32 (7 - kk.val / 128))) : EReal)
        * sblk m c (⟨n, h⟩ : Fin cfg0.N) (ix2 q (0 : Fin 1)))
  else 0

theorem upd_blocks (c : Dev nD) (n : ℕ) (hb : n < cfg0.N) (acc : Vec Ideal S1024x512 .f32) (p : Fin 1024) (q : Fin 512) :
    upd (xblk m c (⟨n, hb⟩ : Fin cfg0.N)) (bblk m c (⟨n, hb⟩ : Fin cfg0.N)) (sblk m c (⟨n, hb⟩ : Fin cfg0.N)) acc (ix2 p q) = acc (ix2 p q) + addend m c n p q := by
  rw [upd_apply]
  unfold addend
  rw [dif_pos hb]

/-- The accumulator after point `t`, at an entry: zero plus the tile products of the run's points up to `t`. -/
theorem acc_after (c : Dev nD) (t : Fin cfg0.N) (p : Fin 1024) (q : Fin 512) :
    (outsAt0 m c t.val t.isLt).2 (ix2 p q)
      = 0 + ∑ s ∈ Finset.range (t.val % 4 + 1), addend m c (4 * (t.val / 4) + s) p q := by
  rw [soutsAt0_0_eq m c t]
  exact Pipeline.accAt_add_apply (fun n h => scAt0_0 m c n h (VS0_0.read (Elt Ideal) VS0_0.junk)) (scAt0_0 m c)
    (fun _ => (0 : EReal)) (fun n (i : S1024x512.Idx) => addend m c n (i 0) (i 1)) (4 * (t.val / 4)) 3
    (fun h i => by
      obtain ⟨p, q, rfl⟩ : ∃ (p : Fin 1024) (q : Fin 512), i = ix2 p q := ⟨i 0, i 1, eq_ix2 i⟩
      show scAt0_0 m c (4 * (t.val / 4)) h _ (ix2 p q) = 0 + addend m c (4 * (t.val / 4)) p q
      rw [scAt_reset m c _ h (by omega), upd_blocks, zeroAcc_apply])
    (fun n h acc i hlt hle => by
      obtain ⟨p, q, rfl⟩ : ∃ (p : Fin 1024) (q : Fin 512), i = ix2 p q := ⟨i 0, i 1, eq_ix2 i⟩
      show scAt0_0 m c n h acc (ix2 p q) = acc (ix2 p q) + addend m c n p q
      rw [scAt_step m c n h (by omega), upd_blocks])
    (t.val % 4) (by omega) _ (ix2 p q)

/-- At the last point of a run the output block is a copy of the accumulator. -/
theorem out_eq_acc (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t)
      (outsAt0 m c (t.val - 1) (Nat.lt_of_le_of_lt (Nat.sub_le _ _) t.isLt)).2).trans
    (scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t)
      (outsAt0 m c (t.val - 1) (Nat.lt_of_le_of_lt (Nat.sub_le _ _) t.isLt)).2).symm

/-! ## The tile product of a point is a tile of the specification's sum -/

/-- Point `4·(t / 4) + s` (the run of `t`, reduction tile `s`) at entry `(p, q)`: the sum over tile `s` of the
    specification's terms for row `R = 1024·(t / 128) + p` and output column `O = 512·(t / 4 % 32) + q`. -/
theorem addend_eq (c : Dev nD) (t : Fin cfg0.N) (s : ℕ) (hs : s < 4) (p : Fin 1024) (q : Fin 512)
    (R : Fin 8192) (O : Fin 16384) (hR : R.val = t.val / 128 * 1024 + p.val) (hO : O.val = t.val / 4 % 32 * 512 + q.val) :
    addend m c (4 * (t.val / 4) + s) p q
      = ∑ kk : Fin 1024, (xarr m c) (ix2 R (col s kk)) * weight (barr m c) (sarr m c) O (col s kk) := by
  have hN : t.val < 1024 := lt_of_lt_of_eq t.isLt N_0
  have hn : 4 * (t.val / 4) + s < cfg0.N := lt_of_lt_of_eq (by omega : 4 * (t.val / 4) + s < 1024) N_0.symm
  have hp := p.isLt
  have hq := q.isLt
  unfold addend
  rw [dif_pos hn]
  refine Finset.sum_congr rfl fun kk _ => ?_
  have hkk := kk.isLt
  have hd := col_div8 s hs kk
  rw [xblk_apply m c ⟨_, hn⟩ p kk R s (by show R.val = (4 * (t.val / 4) + s) / 128 * 1024 + p.val; omega)
      (by show (4 * (t.val / 4) + s) % 4 = s % 4; omega),
    bblk_apply m c ⟨_, hn⟩ q ⟨kk.val % 128, Nat.mod_lt _ (by decide)⟩
      (⟨O.val * 512 + (col s kk).val / 8, by have := (col s kk).isLt; have := O.isLt; omega⟩ : Fin 8388608)
      (by show O.val * 512 + (col s kk).val / 8
            = ((4 * (t.val / 4) + s) / 4 % 32 * 512 + q.val) * 512 + ((4 * (t.val / 4) + s) % 4 * 128 + kk.val % 128)
          rw [hd]; omega),
    sblk_apply m c ⟨_, hn⟩ q O (by show O.val = (4 * (t.val / 4) + s) / 4 % 32 * 512 + q.val; omega)]
  unfold weight
  rw [col_mod8]

/-! ## The write-back, the cover, the array -/

/-- What a flushing point writes back is its block of `spec` of the arguments. -/
theorem flushed_eq (c : Dev nD) (t : Fin cfg0.N) (hf : (cfg0.win 3).flush t = true) :
    (dats m 0 c).flushed 3 t = ((cfg0.win 3).blk t).view.read (Elt Ideal) (spec (xarr m c) (barr m c) (sarr m c)) := by
  have h3 : t.val % 4 = 3 := (flush0_3 t).mp hf
  have hN : t.val < 1024 := lt_of_lt_of_eq t.isLt N_0
  obtain ⟨-, -, -, -, -, -, e6, e7⟩ := idx_facts t
  rw [flushed3 m c t, out_eq_acc m c t h3]
  refine funext fun (j : S1024x512.Idx) => ?_
  obtain ⟨p, q, rfl⟩ : ∃ (p : Fin 1024) (q : Fin 512), j = ix2 p q := ⟨j 0, j 1, eq_ix2 j⟩
  have hp := p.isLt
  have hq := q.isLt
  show (outsAt0 m c t.val t.isLt).2 (ix2 p q) = spec (xarr m c) (barr m c) (sarr m c) (((cfg0.win 3).blk t).view.emb (ix2 p q))
  have hemb : ((cfg0.win 3).blk t).view.emb (ix2 p q)
      = ix2 (⟨t.val / 128 * 1024 + p.val, by omega⟩ : Fin 8192) (⟨t.val / 4 % 32 * 512 + q.val, by omega⟩ : Fin 16384) := by
    funext a; apply Fin.ext
    match a with
    | ⟨0, _⟩ => show win0_3.index t (0 : Fin 2) * 1024 + 1 * p.val = t.val / 128 * 1024 + p.val; rw [e6]; omega
    | ⟨1, _⟩ => show win0_3.index t (1 : Fin 2) * 512 + 1 * q.val = t.val / 4 % 32 * 512 + q.val; rw [e7]; omega
  rw [hemb, acc_after m c t p q, zero_add, h3]
  show ∑ s ∈ Finset.range 4, addend m c (4 * (t.val / 4) + s) p q
      = ∑ i : Fin 4096, (xarr m c) (ix2 (⟨t.val / 128 * 1024 + p.val, by omega⟩ : Fin 8192) i)
          * weight (barr m c) (sarr m c) (⟨t.val / 4 % 32 * 512 + q.val, by omega⟩ : Fin 16384) i
  rw [sum_tiles]
  exact Finset.sum_congr rfl fun s hs => addend_eq m c t s (Finset.mem_range.mp hs) p q _ _ rfl rfl

/-- An index of the result is in point `t`'s block iff each coordinate is in the block's range on its axis. -/
theorem mem_blk (t : Fin cfg0.N) (i : S8192x16384.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v4).slice (win0_3.rect t)).set ↔ _
  rw [View.set_slice_whole, Rect.mem_set_unit]
  exact Iff.rfl

/-- The result array after the run. -/
theorem final (c : Dev nD) : (dats m 0 c).arrAt 3 cfg0.N = spec (xarr m c) (barr m c) (sarr m c) :=
  (dats m 0 c).arrAt_eq_of_cover 3 _ (fun t hf => flushed_eq m c t hf) fun i => by
    have h0 : (i 0).val < 8192 := (i 0).isLt
    have h1 : (i 1).val < 16384 := (i 1).isLt
    have hlt : (i 0).val / 1024 * 128 + (i 1).val / 512 * 4 + 3 < cfg0.N :=
      lt_of_lt_of_eq (by omega : (i 0).val / 1024 * 128 + (i 1).val / 512 * 4 + 3 < 1024) N_0.symm
    obtain ⟨-, -, -, -, -, -, e6, e7⟩ := idx_facts (⟨(i 0).val / 1024 * 128 + (i 1).val / 512 * 4 + 3, hlt⟩ : Fin cfg0.N)
    refine ⟨⟨(i 0).val / 1024 * 128 + (i 1).val / 512 * 4 + 3, hlt⟩, (flush0_3 _).mpr (by
      show ((i 0).val / 1024 * 128 + (i 1).val / 512 * 4 + 3) % 4 = 3; omega), ?_⟩
    rw [mem_blk]
    intro a
    match a with
    | ⟨0, _⟩ =>
      show win0_3.index _ (0 : Fin 2) * 1024 ≤ (i 0).val ∧ (i 0).val < win0_3.index _ (0 : Fin 2) * 1024 + 1024
      rw [e6]
      show ((i 0).val / 1024 * 128 + (i 1).val / 512 * 4 + 3) / 128 * 1024 ≤ (i 0).val
        ∧ (i 0).val < ((i 0).val / 1024 * 128 + (i 1).val / 512 * 4 + 3) / 128 * 1024 + 1024
      omega
    | ⟨1, _⟩ =>
      show win0_3.index _ (1 : Fin 2) * 512 ≤ (i 1).val ∧ (i 1).val < win0_3.index _ (1 : Fin 2) * 512 + 512
      rw [e7]
      show ((i 0).val / 1024 * 128 + (i 1).val / 512 * 4 + 3) / 4 % 32 * 512 ≤ (i 1).val
        ∧ (i 1).val < ((i 0).val / 1024 * 128 + (i 1).val / 512 * 4 + 3) / 4 % 32 * 512 + 512
      omega

/-- The kernel's run, read: the result array at `spec` of the arguments, the arguments unchanged. -/
theorem run : θ_run defs (onTc (τ := τ) (main (F := Ideal))) ⟨m, fun _ => 0, ρ⟩ fun r => ∀ c : Dev nD,
      r.2.mem ((c : Thread nD τ).loc main_v4) = spec (xarr m c) (barr m c) (sarr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Acc

end
-- ==== Proof.lean ====
/-
  A 1-bit-weight linear layer: `out = x · Wᵀ` with `W[o, i] = (2·bit − 1) · scale[o]`, the bits packed eight to a
  word of `bp`, most significant first.

  The kernel tiles the product over an 8 × 32 × 4 grid (row tile, output-column tile, reduction tile), unpacks each
  weight tile plane by plane — so that inside a reduction tile the columns come in the order plane-major, the host
  having permuted the columns of `x` to match —, accumulates the four reduction tiles in a scratch block and copies
  it to the output block at the last one. The reference unpacks all of `bp`, reshapes it to the weight matrix and
  multiplies once. Over the extended reals both compute, at every entry `(b, o)`,

      ∑ᵢ x[b, i] · (sign(bp[512·o + i / 8], 7 − i % 8) · scale[o])            (`Cert.BitLinear.spec`)

  — the kernel as four partial sums over a permutation of the columns of each tile, which is the same sum because
  addition of extended reals is commutative and associative (no finiteness is needed: the two sides add the very
  same products). The frames of the two kernel programs are the generated ones; the reference's frame is its run with
  the result dropped; the idealization rewrote nothing.
-/
import proofs.«405100_j22162031247999_2_alg».proof.Defs
import proofs.«405100_j22162031247999_2_alg».proof.Proof.Gen.Kernel
import proofs.«405100_j22162031247999_2_alg».proof.Proof.Gen.Kernel.Skeleton
import proofs.«405100_j22162031247999_2_alg».proof.Proof.Gen.Kernel.Launch
import proofs.«405100_j22162031247999_2_alg».proof.Proof.Gen.Kernel.Points
import proofs.«405100_j22162031247999_2_alg».proof.Proof.Gen.Kernel.Frame
import proofs.«405100_j22162031247999_2_alg».proof.Proof.Gen.KernelIdeal
import proofs.«405100_j22162031247999_2_alg».proof.Proof.Gen.KernelIdeal.Skeleton
import proofs.«405100_j22162031247999_2_alg».proof.Proof.Gen.KernelIdeal.Launch
import proofs.«405100_j22162031247999_2_alg».proof.Proof.Gen.KernelIdeal.Points
import proofs.«405100_j22162031247999_2_alg».proof.Proof.Gen.KernelIdeal.Frame
import proofs.«405100_j22162031247999_2_alg».proof.Proof.Gen.ReferenceIdeal
import proofs.«405100_j22162031247999_2_alg».proof.Proof.Gen.Pre_finite_inputs
import proofs.«405100_j22162031247999_2_alg».proof.Proof.Gen.KernelIdeal.Value
import proofs.«405100_j22162031247999_2_alg».proof.Proof.Gen.ReferenceIdeal.Run
import proofs.«405100_j22162031247999_2_alg».proof.Proof.Gen.ReferenceIdeal.Read
import proofs.«405100_j22162031247999_2_alg».proof.Proof.Spec
import proofs.«405100_j22162031247999_2_alg».proof.Proof.RefIsSpec
import proofs.«405100_j22162031247999_2_alg».proof.Proof.Fold
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_k : @Cert.frame_Kernel Cert.Kernel.Gen.facts Cert.Pre_finite_inputs.Gen.facts :=
  fun m ρ _ => Cert.Kernel.Gen.frame m ρ

/-- So does its idealization. -/
theorem frame_ki : @Cert.frame_KernelIdeal Cert.KernelIdeal.Gen.facts Cert.Pre_finite_inputs.Gen.facts :=
  fun m ρ _ => Cert.KernelIdeal.Gen.frame m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both idealized programs end with the result array at `spec` of the (agreeing) arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.BitLinear.spec (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Acc.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq_spec,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
